-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg8 : FVec F S256x128 .f32) (main_arg9 : FVec F S128 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S256x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S256x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S256x128 : Shape := ⟨2, ![256, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩

abbrev nBuf : Space → Nat
  | .hbm => 72
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S256x128, .f32⟩
  | .hbm, ⟨9, _⟩ => ⟨S128, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S_, .f32⟩
  | .hbm, ⟨28, _⟩ => ⟨S600000, .f32⟩
  | .hbm, ⟨29, _⟩ => ⟨S_, .f32⟩
  | .hbm, ⟨30, _⟩ => ⟨S50000, .f32⟩
  | .hbm, ⟨31, _⟩ => ⟨S600000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .f32⟩
  | .hbm, ⟨50, _⟩ => ⟨S_, .f32⟩
  | .hbm, ⟨51, _⟩ => ⟨S50000x128, .f32⟩
  | .hbm, ⟨52, _⟩ => ⟨S600000x1, .i32⟩
  | .hbm, ⟨53, _⟩ => ⟨S50000x128, .f32⟩
  | .hbm, ⟨54, _⟩ => ⟨S_, .f32⟩
  | .hbm, ⟨55, _⟩ => ⟨S600000, .f32⟩
  | .hbm, ⟨56, _⟩ => ⟨S_, .f32⟩
  | .hbm, ⟨57, _⟩ => ⟨S50000, .f32⟩
  | .hbm, ⟨58, _⟩ => ⟨S600000x1, .i32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S128x128, .f32⟩
  | .hbm, ⟨69, _⟩ => ⟨S128x128, .f32⟩
  | .hbm, ⟨70, _⟩ => ⟨S1x128, .f32⟩
  | .hbm, ⟨71, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S256x128_S128x128_0_0 : S256x128.Slices ![0, 0] S128x128
  slices_S256x128_S128x128_128_0 : S256x128.Slices ![128, 0] S128x128
  shapeCasts_S128x128_S128x128 : S128x128.ShapeCasts S128x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v24) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S256x128 : Shape := ⟨2, ![256, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S50000x256 : Shape := ⟨2, ![50000, 256]⟩

abbrev nBuf : Space → Nat
  | .hbm => 87
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S256x128, .f32⟩
  | .hbm, ⟨9, _⟩ => ⟨S128, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S_, .f32⟩
  | .hbm, ⟨28, _⟩ => ⟨S600000, .f32⟩
  | .hbm, ⟨29, _⟩ => ⟨S_, .f32⟩
  | .hbm, ⟨30, _⟩ => ⟨S50000, .f32⟩
  | .hbm, ⟨31, _⟩ => ⟨S600000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x128, .f32⟩
  | .hbm, ⟨57, _⟩ => ⟨S_, .f32⟩
  | .hbm, ⟨58, _⟩ => ⟨S50000x128, .f32⟩
  | .hbm, ⟨59, _⟩ => ⟨S600000x1, .i32⟩
  | .hbm, ⟨60, _⟩ => ⟨S50000x128, .f32⟩
  | .hbm, ⟨61, _⟩ => ⟨S_, .f32⟩
  | .hbm, ⟨62, _⟩ => ⟨S600000, .f32⟩
  | .hbm, ⟨63, _⟩ => ⟨S_, .f32⟩
  | .hbm, ⟨64, _⟩ => ⟨S50000, .f32⟩
  | .hbm, ⟨65, _⟩ => ⟨S600000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .f32⟩
  | .hbm, ⟨82, _⟩ => ⟨S50000x256, .f32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S50000x256_S256x128_S50000x128_1_0_0_1_n_n_wf : DotDims.WF S50000x256 S256x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  The mathematics of the two-layer neighbourhood-mean network, over extended reals.

  A matrix is a function of a rank-2 index.  `dot a b` is the rows-by-columns product, entry (r, c) the sum over k of
  a[r,k] · b[k,c].  One layer takes the neighbourhood mean `mean` and the node features `x` of `R` nodes and gives
  max((mean·wl + x·wr) + b, 0) entry by entry, the bias `b` a single row added to every row; the closing linear map
  gives (x1·w1 + x2·w2) + b.  Both are stated for any number of rows `R`, because a block of rows of the result depends
  only on the same rows of `mean` and `x` (`layer_rows`, `final_rows`): that is what lets a result computed block by
  block be read as one function of the whole arrays.

  Two laws join the two programs' arrangements.  The sum (p + q) + s is (p + s) + q in any commutative monoid, the
  extended reals included, so adding the bias before or after the second product is the same (`layer_comm`).  And a
  product whose left factor is two matrices laid side by side, against a right factor whose rows are the rows of two
  matrices one above the other, is the sum of the two products: the sum over 256 splits into the sums over the first
  and the last 128 (`dot_split`).  Neither law moves a factor across a sum, so neither needs finiteness.
-/
import Idealize.ShloMosaic.PureOps.Ideal
import Idealize.ShloMosaic.Lib.ValueIdx

noncomputable section

open scoped BigOperators

namespace Cert.Sage

open Idealize.ShloMosaic Idealize.ShloMosaic.ValueIdx

/-- An `r`-by-`c` matrix of extended reals. -/
abbrev Mat (r c : ℕ) := (⟨2, ![r, c]⟩ : Shape).Idx → EReal

/-- The rows-by-columns product: entry (r, c) is the sum over k of a[r,k] · b[k,c]. -/
def dot {R K C : ℕ} (a : Mat R K) (b : Mat K C) : Mat R C :=
  fun i => ∑ k : Fin K, a (ix2 (i 0) k) * b (ix2 k (i 1))

/-- One layer: max((mean·wl + x·wr) + b, 0), the one-row bias added to every row. -/
def layer {R : ℕ} (mean x : Mat R 128) (wl : Mat 128 128) (b : Mat 1 128) (wr : Mat 128 128) : Mat R 128 :=
  fun i => max ((dot mean wl i + dot x wr i) + b (ix2 0 (i 1))) 0

/-- The closing linear map: (x1·w1 + x2·w2) + b. -/
def final {R : ℕ} (x1 x2 : Mat R 128) (w1 w2 : Mat 128 128) (b : Mat 1 128) : Mat R 128 :=
  fun i => (dot x1 w1 i + dot x2 w2 i) + b (ix2 0 (i 1))

/-- The rows `ρ` of a matrix. -/
def rows {R R' C : ℕ} (ρ : Fin R' → Fin R) (a : Mat R C) : Mat R' C := fun i => a (ix2 (ρ (i 0)) (i 1))

/-- A product's rows are the product of the left factor's rows. -/
theorem dot_rows {R R' K C : ℕ} (ρ : Fin R' → Fin R) (a : Mat R K) (b : Mat K C) (j : (⟨2, ![R', C]⟩ : Shape).Idx) :
    dot (rows ρ a) b j = dot a b (ix2 (ρ (j 0)) (j 1)) := rfl

/-- A layer's rows depend only on the same rows of its two row-indexed inputs. -/
theorem layer_rows {R R' : ℕ} (ρ : Fin R' → Fin R) (mean x : Mat R 128) (wl : Mat 128 128) (b : Mat 1 128)
    (wr : Mat 128 128) (j : (⟨2, ![R', 128]⟩ : Shape).Idx) :
    layer (rows ρ mean) (rows ρ x) wl b wr j = layer mean x wl b wr (ix2 (ρ (j 0)) (j 1)) := rfl

/-- The same for the closing linear map. -/
theorem final_rows {R R' : ℕ} (ρ : Fin R' → Fin R) (x1 x2 : Mat R 128) (w1 w2 : Mat 128 128) (b : Mat 1 128)
    (j : (⟨2, ![R', 128]⟩ : Shape).Idx) :
    final (rows ρ x1) (rows ρ x2) w1 w2 b j = final x1 x2 w1 w2 b (ix2 (ρ (j 0)) (j 1)) := rfl

/-- Adding the bias before the second product or after it: (p + s) + q = (p + q) + s. -/
theorem layer_comm {R : ℕ} (mean x : Mat R 128) (wl : Mat 128 128) (b : Mat 1 128) (wr : Mat 128 128)
    (i : (⟨2, ![R, 128]⟩ : Shape).Idx) :
    max ((dot mean wl i + b (ix2 0 (i 1))) + dot x wr i) 0 = layer mean x wl b wr i := by
  unfold layer
  rw [add_right_comm]

/-- A sum over 256 is the sum over the first 128 plus the sum over the last 128. -/
theorem sum_split (f : Fin 256 → EReal) :
    ∑ k : Fin 256, f k = ∑ k : Fin 128, f (Fin.castAdd 128 k) + ∑ k : Fin 128, f (Fin.natAdd 128 k) :=
  Fin.sum_univ_add (M := EReal) (a := 128) (b := 128) f

/-- The same split with the two halves' indices written out: k and 128 + k. -/
theorem sum_split' (f : Fin 256 → EReal) :
    ∑ k : Fin 256, f k = ∑ k : Fin 128, f ⟨k.val, by omega⟩ + ∑ k : Fin 128, f ⟨128 + k.val, by omega⟩ :=
  sum_split f

/-- A length-128 vector as a one-row matrix. -/
def rowOf (b : (⟨1, ![128]⟩ : Shape).Idx → EReal) : Mat 1 128 := fun i => b (ix1 (i 1))

/-- The first 128 rows of a 256-row matrix. -/
def top (w : Mat 256 128) : Mat 128 128 :=
  fun i => w (ix2 (⟨(i 0).val, by have := idx2_lt0 i; omega⟩ : Fin 256) (i 1))

/-- The last 128 rows of a 256-row matrix. -/
def bot (w : Mat 256 128) : Mat 128 128 :=
  fun i => w (ix2 (⟨128 + (i 0).val, by have := idx2_lt0 i; omega⟩ : Fin 256) (i 1))

/-- The whole network as ONE function of its inputs.  `agg` is the neighbourhood-mean aggregation as a function of the
    node features (the edge list it also depends on is fixed): the first layer aggregates the input features, the second
    the first layer's output, and the closing linear map takes both layers' outputs against the two halves of its weight. -/
def network (agg : Mat 50000 128 → Mat 50000 128) (x : Mat 50000 128)
    (w1l : Mat 128 128) (b1 : (⟨1, ![128]⟩ : Shape).Idx → EReal) (w1r : Mat 128 128)
    (w2l : Mat 128 128) (b2 : (⟨1, ![128]⟩ : Shape).Idx → EReal) (w2r : Mat 128 128)
    (wlin : Mat 256 128) (blin : (⟨1, ![128]⟩ : Shape).Idx → EReal) : Mat 50000 128 :=
  final (layer (agg x) x w1l (rowOf b1) w1r)
    (layer (agg (layer (agg x) x w1l (rowOf b1) w1r)) (layer (agg x) x w1l (rowOf b1) w1r) w2l (rowOf b2) w2r)
    (top wlin) (bot wlin) (rowOf blin)

end Cert.Sage

end
-- ==== Proof.LibPlainDot.lean ====
/-
  A plain matrix product read at an index.  For the dimension numbers of rows-by-columns (the left operand contracted on
  its second axis, the right on its first, no batch axis) the contraction index is one coordinate k, the left operand is
  read at (r, k) and the right at (k, c): the sum over the contraction shape is the sum over k < K of l[r,k] · r[k,c].
  Both a kernel's matrix unit into a zero accumulator and the host's dot product are this sum at the exact instance.
-/
import Idealize.ShloMosaic.PureOps.Ideal.Laws
import Idealize.ShloMosaic.Lib.ValueIdx

namespace Idealize.ShloMosaic.ValueIdx

open Idealize.ShloMosaic

variable {M K N : ℕ}

/-- The left operand's row is the result's row. -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem plain_lhs_1 (i : (⟨2, ![M, N]⟩ : Shape).Idx) (q : (DotDims.plain M K N).contr.Idx) :
    ((DotDims.plain M K N).lhsIdx i q 1).val = (q ⟨0, by rw [DotDims.rank_contr]; exact Nat.one_pos⟩).val :=
  (DotDims.plain M K N).lhsIdx_val_of_single rfl i q

/-- The right operand's row is the contraction coordinate. -/
theorem plain_rhs_0 (i : (⟨2, ![M, N]⟩ : Shape).Idx) (q : (DotDims.plain M K N).contr.Idx) :
    ((DotDims.plain M K N).rhsIdx i q 0).val = (q ⟨0, by rw [DotDims.rank_contr]; exact Nat.one_pos⟩).val :=
  (DotDims.plain M K N).rhsIdx_val_of_single rfl i q

/-- The right operand's column is the result's column. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product, over the one coordinate k < K. -/
theorem plain_dot_sum (l : (⟨2, ![M, K]⟩ : Shape).Idx → EReal) (r : (⟨2, ![K, N]⟩ : Shape).Idx → EReal)
    (i : (⟨2, ![M, N]⟩ : Shape).Idx) :
    ∑ k : (DotDims.plain M K N).contr.Idx, l ((DotDims.plain M K N).lhsIdx i k) * r ((DotDims.plain M K N).rhsIdx i k)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 _ _
      | ⟨1, _⟩ => exact (plain_lhs_1 _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 _ _).trans hk
      | ⟨1, _⟩ => exact plain_rhs_1 _ _)
  exact congrArg₂ (· * ·) (congrArg l el) (congrArg r er)

/-- A kernel's matrix unit into the zero accumulator, at the exact instance, read at an index. -/
theorem plain_matmul_zero_apply {φ₁ φ₂ : FTy} (prec : Option ContractPrecision)
    (l : FVec Ideal (⟨2, ![M, K]⟩ : Shape) φ₁) (r : FVec Ideal (⟨2, ![K, N]⟩ : Shape) φ₂) (i : (⟨2, ![M, N]⟩ : Shape).Idx) :
    FloatOps.matmul (DotDims.plain M K N) prec l r (constant (⟨2, ![M, N]⟩ : Shape) .f32 0x00000000#32) i
      = ∑ k : Fin K, l (ix2 (i 0) k) * r (ix2 k (i 1)) :=
  (Ideal.matmul_constant_zero_apply _ prec l r i).trans (plain_dot_sum l r i)

/-- The host's dot product, at the exact instance, read at an index. -/
theorem plain_dotGeneral_apply {φ₁ φ₂ : FTy} (prec : Option ContractPrecision) (sched : HostSchedule)
    (l : FVec Ideal (⟨2, ![M, K]⟩ : Shape) φ₁) (r : FVec Ideal (⟨2, ![K, N]⟩ : Shape) φ₂) (i : (⟨2, ![M, N]⟩ : Shape).Idx) :
    FloatOps.dotGeneral (DotDims.plain M K N) prec sched l r i = ∑ k : Fin K, l (ix2 (i 0) k) * r (ix2 k (i 1)) :=
  (Ideal.dotGeneral_apply _ prec sched l r i).trans (plain_dot_sum l r i)

end Idealize.ShloMosaic.ValueIdx
-- ==== Proof.KRegion0.lean ====
/-
  Region 0: the first layer's dense stage.  The region's ten grid points each take 5000 rows of the neighbourhood mean
  and of the node features, the two 128-by-128 weights and the one-row bias, and store max((mean·wl + x·wr) + b, 0) on
  those 5000 rows.  At the exact-real instance rounding an operand to bf16 is the identity and the matrix unit into a
  zero accumulator is the rows-by-columns product, so a stored block is one layer of the loaded blocks; a block of rows
  of a layer depends only on the same rows of the mean and of the features, so every stored block is a block of ONE
  whole-array layer; the ten blocks of 5000 rows tile the 50000 rows, so the result array ends holding that layer.
-/
import proofs.«125097_j12695923327233_1_alg».proof.Proof.Patched.KernelIdeal.Frame
import proofs.«125097_j12695923327233_1_alg».proof.Proof.Spec
import proofs.«125097_j12695923327233_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue0

open Idealize.ShloMosaic Idealize.ShloMosaic.TcCoe Idealize.SL.Sem Idealize.ShloMosaic.Pipeline Idealize.ShloMosaic.ValueIdx
open Cert.KernelIdeal Cert.KernelIdeal.Gen Cert.Sage

variable (V : (c : Dev nD) → (b : Ref sig .tc) → Buf (Elt Ideal) ((c : Thread nD τ).loc b)) (c : Dev nD)

/-! ## One block of rows: what a grid point computes from its loaded blocks -/

/-- The one-row bias broadcast to 5000 rows: entry (r, q) is the bias at (0, q). -/
theorem bias_row (b : Vec Ideal S1x128 .f32) (j : S5000x128.Idx) :
    broadcastTo S5000x128 b broadcasts_S1x128_S5000x128 j = b (ix2 0 (j 1)) := by
  refine broadcastTo_apply b _ j (ix2 0 (j 1)) fun a => ?_
  match a with
  | ⟨0, _⟩ => rfl
  | ⟨1, _⟩ => rfl

/-- The matrix unit into a zero accumulator, on operands rounded to bf16 (the identity over the extended reals), is the
    rows-by-columns product: entry (r, q) is the sum over k < 128 of l[r,k] · r[k,q]. -/
theorem mxu_rows (l : Vec Ideal S5000x128 .f32) (r : Vec Ideal S128x128 .f32) (j : S5000x128.Idx) :
    matmul (F := Ideal) dot_S5000x128_S128x128_S5000x128_1_0_0_1_n_n none (truncf .bf16 l bitsLt_bf16_f32)
        (truncf .bf16 r bitsLt_bf16_f32) (constant S5000x128 .f32 0x00000000#32) j
      = dot (R := 5000) l r j :=
  plain_matmul_zero_apply (M := 5000) (K := 128) (N := 128) none (truncf (F := Ideal) .bf16 l bitsLt_bf16_f32)
    (truncf (F := Ideal) .bf16 r bitsLt_bf16_f32) j

/-- The stored block is one layer of the loaded blocks: max((mean·wl + x·wr) + b, 0) on 5000 rows. -/
theorem block_eq (x0 x1 : Vec Ideal S5000x128 .f32) (x2 : Vec Ideal S128x128 .f32) (x3 : Vec Ideal S1x128 .f32)
    (x4 : Vec Ideal S128x128 .f32) (j : S5000x128.Idx) :
    k0_pay1 (F := Ideal) x0 x1 x2 x4 x3 j = layer (R := 5000) x0 x1 x2 x3 x4 j := by
  unfold k0_pay1 layer
  simp only [shapeCast_self]
  rw [maximumf_apply, addf_apply, addf_apply, broadcast_apply, bias_row, mxu_rows, mxu_rows]
  exact congrArg (max _) Ideal.ofBits_zero_f32

/-! ## Which rows of the arrays a grid point's blocks are -/

/-- The zero offsets of a rectangle that is a whole block. -/
theorem hz : (![0, 0] : Fin 2 → Nat) = fun _ => 0 := funext fun a => by fin_cases a <;> rfl

/-- The block index maps over the grid: the three row-blocked windows (mean, x, result) are at row block t and column
    block 0; the three small windows (the two weights and the bias) are at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row r of grid point t's block is row 5000·t + r of the array. -/
def rowAt (t : Fin cfg0.N) (r : Fin 5000) : Fin 50000 :=
  ⟨5000 * t.val + r.val, by have : t.val < 10 := t.isLt; have := r.isLt; omega⟩

/-- The mean window's block at point t is rows 5000·t … 5000·t + 4999 of the mean array. -/
theorem mean_block (t : Fin cfg0.N) : (iblk0 V c 0 t : Vec Ideal S5000x128 .f32) = rows (rowAt t) (V c main_v22 : Mat 50000 128) := by
  obtain ⟨e0, e1, -⟩ := idx_facts t
  funext j
  unfold iblk0
  rw [View.read_apply]
  show V c main_v22 _ = V c main_v22 _
  congr 1
  funext a; apply Fin.ext
  match a with
  | ⟨0, _⟩ => show win0_0.index t (0 : Fin 2) * 5000 + 1 * (j 0).val = 5000 * t.val + (j 0).val; rw [e0]; omega
  | ⟨1, _⟩ => show win0_0.index t (1 : Fin 2) * 128 + 1 * (j 1).val = (j 1).val; rw [e1]; omega

/-- The feature window's block at point t is the same rows of the feature array. -/
theorem x_block (t : Fin cfg0.N) : (iblk0 V c 1 t : Vec Ideal S5000x128 .f32) = rows (rowAt t) (V c main_arg0 : Mat 50000 128) := by
  obtain ⟨-, -, e0, e1, -⟩ := idx_facts t
  funext j
  unfold iblk0
  rw [View.read_apply]
  show V c main_arg0 _ = V c main_arg0 _
  congr 1
  funext a; apply Fin.ext
  match a with
  | ⟨0, _⟩ => show win0_1.index t (0 : Fin 2) * 5000 + 1 * (j 0).val = 5000 * t.val + (j 0).val; rw [e0]; omega
  | ⟨1, _⟩ => show win0_1.index t (1 : Fin 2) * 128 + 1 * (j 1).val = (j 1).val; rw [e1]; omega

/-- The left weight's window is the whole array at every point. -/
theorem wl_block (t : Fin cfg0.N) : (iblk0 V c 2 t : Vec Ideal S128x128 .f32) = (V c main_arg2 : Mat 128 128) := by
  obtain ⟨-, -, -, -, e0, e1, -⟩ := idx_facts t
  funext j
  unfold iblk0
  rw [View.read_apply]
  show V c main_arg2 _ = V c main_arg2 _
  congr 1
  funext a; apply Fin.ext
  match a with
  | ⟨0, _⟩ => show win0_2.index t (0 : Fin 2) * 128 + 1 * (j 0).val = (j 0).val; rw [e0]; omega
  | ⟨1, _⟩ => show win0_2.index t (1 : Fin 2) * 128 + 1 * (j 1).val = (j 1).val; rw [e1]; omega

/-- The bias row's window is the whole array at every point. -/
theorem bias_block (t : Fin cfg0.N) : (iblk0 V c 3 t : Vec Ideal S1x128 .f32) = (V c main_v23 : Mat 1 128) := by
  obtain ⟨-, -, -, -, -, -, e0, e1, -⟩ := idx_facts t
  funext j
  unfold iblk0
  rw [View.read_apply]
  show V c main_v23 _ = V c main_v23 _
  congr 1
  funext a; apply Fin.ext
  match a with
  | ⟨0, _⟩ => show win0_3.index t (0 : Fin 2) * 1 + 1 * (j 0).val = (j 0).val; rw [e0]; omega
  | ⟨1, _⟩ => show win0_3.index t (1 : Fin 2) * 128 + 1 * (j 1).val = (j 1).val; rw [e1]; omega

/-- The right weight's window is the whole array at every point. -/
theorem wr_block (t : Fin cfg0.N) : (iblk0 V c 4 t : Vec Ideal S128x128 .f32) = (V c main_arg4 : Mat 128 128) := by
  obtain ⟨-, -, -, -, -, -, -, -, e0, e1, -⟩ := idx_facts t
  funext j
  unfold iblk0
  rw [View.read_apply]
  show V c main_arg4 _ = V c main_arg4 _
  congr 1
  funext a; apply Fin.ext
  match a with
  | ⟨0, _⟩ => show win0_4.index t (0 : Fin 2) * 128 + 1 * (j 0).val = (j 0).val; rw [e0]; omega
  | ⟨1, _⟩ => show win0_4.index t (1 : Fin 2) * 128 + 1 * (j 1).val = (j 1).val; rw [e1]; omega

/-- Entry (r, q) of the result window's block at point t sits at (5000·t + r, q) in the result array. -/
theorem out_emb (t : Fin cfg0.N) (j : S5000x128.Idx) :
    ((cfg0.win 5).blk t).view.emb j = (ix2 (rowAt t (j 0)) (j 1) : S50000x128.Idx) := by
  obtain ⟨-, -, -, -, -, -, -, -, -, -, e0, e1⟩ := idx_facts t
  funext a; apply Fin.ext
  match a with
  | ⟨0, _⟩ => show win0_5.index t (0 : Fin 2) * 5000 + 1 * (j 0).val = 5000 * t.val + (j 0).val; rw [e0]; omega
  | ⟨1, _⟩ => show win0_5.index t (1 : Fin 2) * 128 + 1 * (j 1).val = (j 1).val; rw [e1]; omega

/-- A stored block whose row-indexed inputs are the rows ρ of two arrays, and whose small inputs are whole arrays, read
    at (r, q), is the whole-array layer at (ρ r, q): the block computes a layer (`block_eq`), and a layer's rows depend
    only on the same rows of its row-indexed inputs (`layer_rows`). -/
theorem block_of_rows (ρ : Fin 5000 → Fin 50000) (mean x : Mat 50000 128) (wl : Mat 128 128) (b : Mat 1 128) (wr : Mat 128 128)
    (x0 x1 : Vec Ideal S5000x128 .f32) (x2 : Vec Ideal S128x128 .f32) (x3 : Vec Ideal S1x128 .f32) (x4 : Vec Ideal S128x128 .f32)
    (h0 : x0 = rows ρ mean) (h1 : x1 = rows ρ x) (h2 : x2 = wl) (h3 : x3 = b) (h4 : x4 = wr)
    (j : S5000x128.Idx) (i : S50000x128.Idx) (hi : i = ix2 (ρ (j 0)) (j 1)) :
    k0_pay1 (F := Ideal) x0 x1 x2 x4 x3 j = layer (R := 50000) mean x wl b wr i := by
  subst h0 h1 h2 h3 h4 hi
  exact (block_eq (rows ρ mean) (rows ρ x) x2 x3 x4 j).trans (layer_rows ρ mean x x2 x3 x4 j)

/-! ## What each grid point writes back, and the whole result -/

/-- The whole-array result of the region: one layer of the arrays the region finds. -/
abbrev result : Mat 50000 128 :=
  layer (R := 50000) (V c main_v22) (V c main_arg0) (V c main_arg2) (V c main_v23) (V c main_arg4)

/-- What point t writes back is block t of the whole-array layer. -/
theorem flushed_eq (t : Fin cfg0.N) :
    (dat0 (F := Ideal) V c).flushed 5 t = ((cfg0.win 5).blk t).view.read (Elt Ideal) (result V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  exact block_of_rows (rowAt t) (V c main_v22) (V c main_arg0) (V c main_arg2) (V c main_v23) (V c main_arg4)
    (iblk0 V c 0 t) (iblk0 V c 1 t) (iblk0 V c 2 t) (iblk0 V c 3 t) (iblk0 V c 4 t)
    (mean_block V c t) (x_block V c t) (wl_block V c t) (bias_block V c t) (wr_block V c t)
    j (((cfg0.win 5).blk t).view.emb j) (out_emb t j)

/-- An index of the result array is in point t's block iff its row is among rows 5000·t … 5000·t + 4999. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- Every index of the result array is in the block of the point its row falls in: row r is in block r / 5000. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := rfl
  refine ⟨⟨(i 0).val / 5000, by rw [hN]; omega⟩, flush0_5 _, ?_⟩
  rw [mem_blk]
  obtain ⟨-, -, -, -, -, -, -, -, -, -, e0, e1⟩ := idx_facts ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e1]; omega

/-- The result array after the region's ten grid points is one layer of the arrays the region finds. -/
theorem region0 :
    (dat0 (F := Ideal) V c).arrAt 5 cfg0.N
      = layer (R := 50000) (V c main_v22) (V c main_arg0) (V c main_arg2) (V c main_v23) (V c main_arg4) :=
  (dat0 (F := Ideal) V c).arrAt_eq_of_cover 5 (result V c) (fun t _ => flushed_eq V c t) cover

end Cert.KernelIdeal.RegionValue0

end
-- ==== Proof.KRegion1.lean ====
/-
  Region 1: the second layer's dense stage.  The region's ten grid points each take 5000 rows of the neighbourhood mean
  of the first layer's output and of that output itself, the two 128-by-128 weights and the one-row bias, and store
  max((mean·wl + x·wr) + b, 0) on those 5000 rows.  At the exact-real instance rounding an operand to bf16 is the
  identity and the matrix unit into a zero accumulator is the rows-by-columns product, so a stored block is one layer of
  the loaded blocks; a block of rows of a layer depends only on the same rows of the mean and of the features, so every
  stored block is a block of ONE whole-array layer; the ten blocks of 5000 rows tile the 50000 rows, so the result array
  ends holding that layer.
-/
import proofs.«125097_j12695923327233_1_alg».proof.Proof.Patched.KernelIdeal.Frame
import proofs.«125097_j12695923327233_1_alg».proof.Proof.Spec
import proofs.«125097_j12695923327233_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue1

open Idealize.ShloMosaic Idealize.ShloMosaic.TcCoe Idealize.SL.Sem Idealize.ShloMosaic.Pipeline Idealize.ShloMosaic.ValueIdx
open Cert.KernelIdeal Cert.KernelIdeal.Gen Cert.Sage

variable (V : (c : Dev nD) → (b : Ref sig .tc) → Buf (Elt Ideal) ((c : Thread nD τ).loc b)) (c : Dev nD)

/-! ## One block of rows: what a grid point computes from its loaded blocks -/

/-- The one-row bias broadcast to 5000 rows: entry (r, q) is the bias at (0, q). -/
theorem bias_row (b : Vec Ideal S1x128 .f32) (j : S5000x128.Idx) :
    broadcastTo S5000x128 b broadcasts_S1x128_S5000x128 j = b (ix2 0 (j 1)) := by
  refine broadcastTo_apply b _ j (ix2 0 (j 1)) fun a => ?_
  match a with
  | ⟨0, _⟩ => rfl
  | ⟨1, _⟩ => rfl

/-- The matrix unit into a zero accumulator, on operands rounded to bf16 (the identity over the extended reals), is the
    rows-by-columns product: entry (r, q) is the sum over k < 128 of l[r,k] · r[k,q]. -/
theorem mxu_rows (l : Vec Ideal S5000x128 .f32) (r : Vec Ideal S128x128 .f32) (j : S5000x128.Idx) :
    matmul (F := Ideal) dot_S5000x128_S128x128_S5000x128_1_0_0_1_n_n none (truncf .bf16 l bitsLt_bf16_f32)
        (truncf .bf16 r bitsLt_bf16_f32) (constant S5000x128 .f32 0x00000000#32) j
      = dot (R := 5000) l r j :=
  plain_matmul_zero_apply (M := 5000) (K := 128) (N := 128) none (truncf (F := Ideal) .bf16 l bitsLt_bf16_f32)
    (truncf (F := Ideal) .bf16 r bitsLt_bf16_f32) j

/-- The stored block is one layer of the loaded blocks: max((mean·wl + x·wr) + b, 0) on 5000 rows. -/
theorem block_eq (x0 x1 : Vec Ideal S5000x128 .f32) (x2 : Vec Ideal S128x128 .f32) (x3 : Vec Ideal S1x128 .f32)
    (x4 : Vec Ideal S128x128 .f32) (j : S5000x128.Idx) :
    k1_pay1 (F := Ideal) x0 x1 x2 x4 x3 j = layer (R := 5000) x0 x1 x2 x3 x4 j := by
  unfold k1_pay1 layer
  simp only [shapeCast_self]
  rw [maximumf_apply, addf_apply, addf_apply, broadcast_apply, bias_row, mxu_rows, mxu_rows]
  exact congrArg (max _) Ideal.ofBits_zero_f32

/-! ## Which rows of the arrays a grid point's blocks are -/

/-- The zero offsets of a rectangle that is a whole block. -/
theorem hz : (![0, 0] : Fin 2 → Nat) = fun _ => 0 := funext fun a => by fin_cases a <;> rfl

/-- The block index maps over the grid: the three row-blocked windows (mean, x, result) are at row block t and column
    block 0; the three small windows (the two weights and the bias) are at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row r of grid point t's block is row 5000·t + r of the array. -/
def rowAt (t : Fin cfg1.N) (r : Fin 5000) : Fin 50000 :=
  ⟨5000 * t.val + r.val, by have : t.val < 10 := t.isLt; have := r.isLt; omega⟩

/-- The mean window's block at point t is rows 5000·t … 5000·t + 4999 of the mean array. -/
theorem mean_block (t : Fin cfg1.N) : (iblk1 V c 0 t : Vec Ideal S5000x128 .f32) = rows (rowAt t) (V c main_v43 : Mat 50000 128) := by
  obtain ⟨e0, e1, -⟩ := idx_facts t
  funext j
  unfold iblk1
  rw [View.read_apply]
  show V c main_v43 _ = V c main_v43 _
  congr 1
  funext a; apply Fin.ext
  match a with
  | ⟨0, _⟩ => show win1_0.index t (0 : Fin 2) * 5000 + 1 * (j 0).val = 5000 * t.val + (j 0).val; rw [e0]; omega
  | ⟨1, _⟩ => show win1_0.index t (1 : Fin 2) * 128 + 1 * (j 1).val = (j 1).val; rw [e1]; omega

/-- The feature window's block at point t is the same rows of the feature array. -/
theorem x_block (t : Fin cfg1.N) : (iblk1 V c 1 t : Vec Ideal S5000x128 .f32) = rows (rowAt t) (V c main_v24 : Mat 50000 128) := by
  obtain ⟨-, -, e0, e1, -⟩ := idx_facts t
  funext j
  unfold iblk1
  rw [View.read_apply]
  show V c main_v24 _ = V c main_v24 _
  congr 1
  funext a; apply Fin.ext
  match a with
  | ⟨0, _⟩ => show win1_1.index t (0 : Fin 2) * 5000 + 1 * (j 0).val = 5000 * t.val + (j 0).val; rw [e0]; omega
  | ⟨1, _⟩ => show win1_1.index t (1 : Fin 2) * 128 + 1 * (j 1).val = (j 1).val; rw [e1]; omega

/-- The left weight's window is the whole array at every point. -/
theorem wl_block (t : Fin cfg1.N) : (iblk1 V c 2 t : Vec Ideal S128x128 .f32) = (V c main_arg5 : Mat 128 128) := by
  obtain ⟨-, -, -, -, e0, e1, -⟩ := idx_facts t
  funext j
  unfold iblk1
  rw [View.read_apply]
  show V c main_arg5 _ = V c main_arg5 _
  congr 1
  funext a; apply Fin.ext
  match a with
  | ⟨0, _⟩ => show win1_2.index t (0 : Fin 2) * 128 + 1 * (j 0).val = (j 0).val; rw [e0]; omega
  | ⟨1, _⟩ => show win1_2.index t (1 : Fin 2) * 128 + 1 * (j 1).val = (j 1).val; rw [e1]; omega

/-- The bias row's window is the whole array at every point. -/
theorem bias_block (t : Fin cfg1.N) : (iblk1 V c 3 t : Vec Ideal S1x128 .f32) = (V c main_v44 : Mat 1 128) := by
  obtain ⟨-, -, -, -, -, -, e0, e1, -⟩ := idx_facts t
  funext j
  unfold iblk1
  rw [View.read_apply]
  show V c main_v44 _ = V c main_v44 _
  congr 1
  funext a; apply Fin.ext
  match a with
  | ⟨0, _⟩ => show win1_3.index t (0 : Fin 2) * 1 + 1 * (j 0).val = (j 0).val; rw [e0]; omega
  | ⟨1, _⟩ => show win1_3.index t (1 : Fin 2) * 128 + 1 * (j 1).val = (j 1).val; rw [e1]; omega

/-- The right weight's window is the whole array at every point. -/
theorem wr_block (t : Fin cfg1.N) : (iblk1 V c 4 t : Vec Ideal S128x128 .f32) = (V c main_arg7 : Mat 128 128) := by
  obtain ⟨-, -, -, -, -, -, -, -, e0, e1, -⟩ := idx_facts t
  funext j
  unfold iblk1
  rw [View.read_apply]
  show V c main_arg7 _ = V c main_arg7 _
  congr 1
  funext a; apply Fin.ext
  match a with
  | ⟨0, _⟩ => show win1_4.index t (0 : Fin 2) * 128 + 1 * (j 0).val = (j 0).val; rw [e0]; omega
  | ⟨1, _⟩ => show win1_4.index t (1 : Fin 2) * 128 + 1 * (j 1).val = (j 1).val; rw [e1]; omega

/-- Entry (r, q) of the result window's block at point t sits at (5000·t + r, q) in the result array. -/
theorem out_emb (t : Fin cfg1.N) (j : S5000x128.Idx) :
    ((cfg1.win 5).blk t).view.emb j = (ix2 (rowAt t (j 0)) (j 1) : S50000x128.Idx) := by
  obtain ⟨-, -, -, -, -, -, -, -, -, -, e0, e1⟩ := idx_facts t
  funext a; apply Fin.ext
  match a with
  | ⟨0, _⟩ => show win1_5.index t (0 : Fin 2) * 5000 + 1 * (j 0).val = 5000 * t.val + (j 0).val; rw [e0]; omega
  | ⟨1, _⟩ => show win1_5.index t (1 : Fin 2) * 128 + 1 * (j 1).val = (j 1).val; rw [e1]; omega

/-- A stored block whose row-indexed inputs are the rows ρ of two arrays, and whose small inputs are whole arrays, read
    at (r, q), is the whole-array layer at (ρ r, q): the block computes a layer (`block_eq`), and a layer's rows depend
    only on the same rows of its row-indexed inputs (`layer_rows`). -/
theorem block_of_rows (ρ : Fin 5000 → Fin 50000) (mean x : Mat 50000 128) (wl : Mat 128 128) (b : Mat 1 128) (wr : Mat 128 128)
    (x0 x1 : Vec Ideal S5000x128 .f32) (x2 : Vec Ideal S128x128 .f32) (x3 : Vec Ideal S1x128 .f32) (x4 : Vec Ideal S128x128 .f32)
    (h0 : x0 = rows ρ mean) (h1 : x1 = rows ρ x) (h2 : x2 = wl) (h3 : x3 = b) (h4 : x4 = wr)
    (j : S5000x128.Idx) (i : S50000x128.Idx) (hi : i = ix2 (ρ (j 0)) (j 1)) :
    k1_pay1 (F := Ideal) x0 x1 x2 x4 x3 j = layer (R := 50000) mean x wl b wr i := by
  subst h0 h1 h2 h3 h4 hi
  exact (block_eq (rows ρ mean) (rows ρ x) x2 x3 x4 j).trans (layer_rows ρ mean x x2 x3 x4 j)

/-! ## What each grid point writes back, and the whole result -/

/-- The whole-array result of the region: one layer of the arrays the region finds. -/
abbrev result : Mat 50000 128 :=
  layer (R := 50000) (V c main_v43) (V c main_v24) (V c main_arg5) (V c main_v44) (V c main_arg7)

/-- What point t writes back is block t of the whole-array layer. -/
theorem flushed_eq (t : Fin cfg1.N) :
    (dat1 (F := Ideal) V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  exact block_of_rows (rowAt t) (V c main_v43) (V c main_v24) (V c main_arg5) (V c main_v44) (V c main_arg7)
    (iblk1 V c 0 t) (iblk1 V c 1 t) (iblk1 V c 2 t) (iblk1 V c 3 t) (iblk1 V c 4 t)
    (mean_block V c t) (x_block V c t) (wl_block V c t) (bias_block V c t) (wr_block V c t)
    j (((cfg1.win 5).blk t).view.emb j) (out_emb t j)

/-- An index of the result array is in point t's block iff its row is among rows 5000·t … 5000·t + 4999. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v45).slice (win1_5.rect t)).set ↔ _
  rw [View.set_slice_whole, Rect.mem_set_unit]
  exact Iff.rfl

/-- Every index of the result array is in the block of the point its row falls in: row r is in block r / 5000. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := rfl
  refine ⟨⟨(i 0).val / 5000, by rw [hN]; omega⟩, flush1_5 _, ?_⟩
  rw [mem_blk]
  obtain ⟨-, -, -, -, -, -, -, -, -, -, e0, e1⟩ := idx_facts ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e1]; omega

/-- The result array after the region's ten grid points is one layer of the arrays the region finds. -/
theorem region1 :
    (dat1 (F := Ideal) V c).arrAt 5 cfg1.N
      = layer (R := 50000) (V c main_v43) (V c main_v24) (V c main_arg5) (V c main_v44) (V c main_arg7) :=
  (dat1 (F := Ideal) V c).arrAt_eq_of_cover 5 (result V c) (fun t _ => flushed_eq V c t) cover

end Cert.KernelIdeal.RegionValue1

end
-- ==== Proof.KRegion2.lean ====
/-
  The closing linear map's region: after its ten grid points the output array is (x1·w1 + x2·w2) + b of the whole input
  arrays, entry by entry.

  At one grid point the body holds a block of 5000 rows of each of x1 and x2, the two 128-by-128 weights and the one-row
  bias whole, and stores (x1blk·w1 + x2blk·w2) + b on those 5000 rows: on exact values the narrowings of the factors are
  the identity, each product into the zero accumulator is the plain sum over k of l[r,k] · w[k,c], and the bias row is
  read at row 0 for every row.  Block t of a row-blocked array is its rows 5000·t … 5000·t + 4999; an entry of the map in
  row r depends only on row r of x1 and x2, so the map of the blocks is the block of the map.  Row r of the output lies in
  the block of point r / 5000 and every point writes its block back, so the ten blocks fill the array.
-/
import proofs.«125097_j12695923327233_1_alg».proof.Proof.Patched.KernelIdeal.Frame
import proofs.«125097_j12695923327233_1_alg».proof.Proof.Spec
import proofs.«125097_j12695923327233_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue2

open Idealize.ShloMosaic Idealize.ShloMosaic.TcCoe Idealize.SL.Sem Idealize.ShloMosaic.Pipeline Idealize.ShloMosaic.ValueIdx
open Cert.KernelIdeal Cert.KernelIdeal.Gen Cert.Sage

variable (V : (c : Dev nD) → (b : Ref sig .tc) → Buf (Elt Ideal) ((c : Thread nD τ).loc b)) (c : Dev nD)

/-! ## The body on one block of 5000 rows -/

/-- The printed dimension record of the kernel's two products is the plain rows-by-columns one. -/
theorem dims_plain : dot_S5000x128_S128x128_S5000x128_1_0_0_1_n_n = DotDims.plain 5000 128 128 := rfl

/-- One product of the kernel into the zero accumulator, read at an index: the sum over k of l[r,k] · w[k,c]. -/
theorem product_apply (l : FVec Ideal S5000x128 .bf16) (w : FVec Ideal S128x128 .bf16) (j : S5000x128.Idx) :
    matmul (F := Ideal) dot_S5000x128_S128x128_S5000x128_1_0_0_1_n_n none l w (constant (F := Ideal) S5000x128 .f32 0x00000000#32) j
      = ∑ k : Fin 128, l (ix2 (j 0) k) * w (ix2 k (j 1)) := by
  rw [dims_plain]
  exact plain_matmul_zero_apply none l w j

/-- What the body stores, from its five loaded blocks, is the closing linear map on 5000 rows: the two narrowings are
    the identity on exact values, the two products are the plain sums over k, the one-row bias is read at row 0. -/
theorem final_block (x0 x1 : Vec Ideal S5000x128 .f32) (x2 x3 : Vec Ideal S128x128 .f32) (x4 : Vec Ideal S1x128 .f32) (j : S5000x128.Idx) :
    k2_pay1 (F := Ideal) x0 x1 x2 x3 x4 j = final (R := 5000) x0 x1 x2 x3 x4 j := by
  unfold k2_pay1 final dot
  simp only [shapeCast_self]
  rw [addf_apply, addf_apply, product_apply, product_apply]
  rw [broadcastTo_apply x4 broadcasts_S1x128_S5000x128 j (ix2 0 (j 1)) (fun a => by
    match a with
    | ⟨0, _⟩ => rfl
    | ⟨1, _⟩ => rfl)]
  rfl

/-! ## The blocks as rows of the arrays -/

theorem zero_offsets : (![0, 0] : Fin 2 → Nat) = fun _ => 0 := funext fun a => by fin_cases a <;> rfl

/-- The printed index maps, decided over the ten grid points: the two row-blocked inputs and the output are at block
    (t, 0); the two weights and the bias are at block (0, 0) throughout. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row r of block t is row 5000·t + r of a 50000-row array. -/
def blockRow (t : Fin cfg2.N) : Fin 5000 → Fin 50000 :=
  fun r => ⟨5000 * t.val + r.val, by have ht : t.val < 10 := lt_of_lt_of_eq t.isLt N_2; have := r.isLt; omega⟩

/-- The first row-blocked input's block at point t is rows 5000·t … 5000·t + 4999 of its array. -/
theorem x1_block (t : Fin cfg2.N) :
    (iblk2 V c 0 t : Vec Ideal S5000x128 .f32) = rows (blockRow t) (V c main_v24) := by
  obtain ⟨e0, e1, -⟩ := block_indices t
  funext y
  unfold iblk2
  rw [View.read_apply]
  show V c main_v24 _ = V c main_v24 _
  refine congrArg (V c main_v24) (funext fun a => Fin.ext ?_)
  match a with
  | ⟨0, _⟩ => show win2_0.index t (0 : Fin 2) * 5000 + 1 * (y 0).val = 5000 * t.val + (y 0).val; rw [e0]; omega
  | ⟨1, _⟩ => show win2_0.index t (1 : Fin 2) * 128 + 1 * (y 1).val = (y 1).val; rw [e1]; omega

/-- The second row-blocked input's block at point t is the same rows of its array. -/
theorem x2_block (t : Fin cfg2.N) :
    (iblk2 V c 1 t : Vec Ideal S5000x128 .f32) = rows (blockRow t) (V c main_v45) := by
  obtain ⟨-, -, e0, e1, -⟩ := block_indices t
  funext y
  unfold iblk2
  rw [View.read_apply]
  show V c main_v45 _ = V c main_v45 _
  refine congrArg (V c main_v45) (funext fun a => Fin.ext ?_)
  match a with
  | ⟨0, _⟩ => show win2_1.index t (0 : Fin 2) * 5000 + 1 * (y 0).val = 5000 * t.val + (y 0).val; rw [e0]; omega
  | ⟨1, _⟩ => show win2_1.index t (1 : Fin 2) * 128 + 1 * (y 1).val = (y 1).val; rw [e1]; omega

/-- The first weight's block at every point is its whole array. -/
theorem w1_block (t : Fin cfg2.N) : (iblk2 V c 2 t : Vec Ideal S128x128 .f32) = V c main_v46 := by
  obtain ⟨-, -, -, -, e0, e1, -⟩ := block_indices t
  funext y
  unfold iblk2
  rw [View.read_apply]
  show V c main_v46 _ = V c main_v46 _
  refine congrArg (V c main_v46) (funext fun a => Fin.ext ?_)
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

/-- The second weight's block at every point is its whole array. -/
theorem w2_block (t : Fin cfg2.N) : (iblk2 V c 3 t : Vec Ideal S128x128 .f32) = V c main_v47 := by
  obtain ⟨-, -, -, -, -, -, e0, e1, -⟩ := block_indices t
  funext y
  unfold iblk2
  rw [View.read_apply]
  show V c main_v47 _ = V c main_v47 _
  refine congrArg (V c main_v47) (funext fun a => Fin.ext ?_)
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-- The bias's block at every point is its whole one-row array. -/
theorem bias_block (t : Fin cfg2.N) : (iblk2 V c 4 t : Vec Ideal S1x128 .f32) = V c main_v48 := by
  obtain ⟨-, -, -, -, -, -, -, -, e0, e1, -⟩ := block_indices t
  funext y
  unfold iblk2
  rw [View.read_apply]
  show V c main_v48 _ = V c main_v48 _
  refine congrArg (V c main_v48) (funext fun a => Fin.ext ?_)
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-! ## What a point writes back -/

/-- The body's value on blocks that are rows ρ of two arrays, with whole weights and bias, is the closing linear map of
    the arrays at row ρ(r): rows of the map depend only on the same rows of its two row-indexed inputs. -/
theorem final_block_rows (ρ : Fin 5000 → Fin 50000) (a1 a2 : Mat 50000 128) (w1 w2 : Mat 128 128) (b : Mat 1 128)
    (x0 x1 : Vec Ideal S5000x128 .f32) (x2 x3 : Vec Ideal S128x128 .f32) (x4 : Vec Ideal S1x128 .f32)
    (h0 : x0 = rows ρ a1) (h1 : x1 = rows ρ a2) (h2 : x2 = w1) (h3 : x3 = w2) (h4 : x4 = b) (j : S5000x128.Idx) :
    k2_pay1 (F := Ideal) x0 x1 x2 x3 x4 j = final (R := 50000) a1 a2 w1 w2 b (ix2 (ρ (j 0)) (j 1)) := by
  subst h0 h1 h2 h3 h4
  exact (final_block _ _ _ _ _ j).trans (final_rows ρ a1 a2 _ _ _ j)

/-- Point t writes back block t of the closing linear map of the whole arrays: the body's value on the blocks is the map
    on 5000 rows, the row-blocked inputs' blocks are rows 5000·t … of their arrays, the weights and the bias are whole, and
    rows of the map depend only on the same rows of its two row-indexed inputs. -/
theorem block_written (t : Fin cfg2.N) :
    (dat2 (F := Ideal) V c).flushed 5 t
      = ((cfg2.win 5).blk t).view.read (Elt Ideal)
          (final (R := 50000) (V c main_v24) (V c main_v45) (V c main_v46) (V c main_v47) (V c main_v48)) := by
  show (cfg2.win 5).cut (grid2.coords t) ((dat2 V c).after 5 t) = _
  rw [after2_5]
  unfold out2_5
  rw [View.canon_unit_zero zero_offsets]
  simp only [View.ld_unit_zero (S := S5000x128) zero_offsets, View.ld_unit_zero (S := S128x128) zero_offsets,
    View.ld_unit_zero (S := S1x128) zero_offsets]
  obtain ⟨-, -, -, -, -, -, -, -, -, -, e0, e1⟩ := block_indices t
  funext j
  show k2_pay1 (F := Ideal) (iblk2 V c 0 t) (iblk2 V c 1 t) (iblk2 V c 2 t) (iblk2 V c 3 t) (iblk2 V c 4 t) j
    = final (R := 50000) (V c main_v24) (V c main_v45) (V c main_v46) (V c main_v47) (V c main_v48)
        (((cfg2.win 5).blk t).view.emb j)
  refine (final_block_rows (blockRow t) (V c main_v24) (V c main_v45) (V c main_v46) (V c main_v47) (V c main_v48)
    (iblk2 V c 0 t) (iblk2 V c 1 t) (iblk2 V c 2 t) (iblk2 V c 3 t) (iblk2 V c 4 t)
    (x1_block V c t) (x2_block V c t) (w1_block V c t) (w2_block V c t) (bias_block V c t) j).trans ?_
  refine congrArg (final (R := 50000) (V c main_v24) (V c main_v45) (V c main_v46) (V c main_v47) (V c main_v48))
    (funext fun a => Fin.ext ?_)
  match a with
  | ⟨0, _⟩ => show 5000 * t.val + (j 0).val = win2_5.index t (0 : Fin 2) * 5000 + 1 * (j 0).val; rw [e0]; omega
  | ⟨1, _⟩ => show (j 1).val = win2_5.index t (1 : Fin 2) * 128 + 1 * (j 1).val; rw [e1]; omega

/-! ## The ten blocks cover the array -/

/-- An index of the output array is in point t's block iff each coordinate is in the block's range on its axis. -/
theorem in_block_iff (t : Fin cfg2.N) (i : S50000x128.Idx) :
    i ∈ ((cfg2.win 5).blk t).view.set
      ↔ ∀ a : Fin 2, win2_5.index t a * S5000x128.size a ≤ (i a).val ∧ (i a).val < win2_5.index t a * S5000x128.size a + S5000x128.size a := by
  show i ∈ ((View.whole main_v49).slice (win2_5.rect t)).set ↔ _
  rw [View.set_slice_whole, Rect.mem_set_unit]
  exact Iff.rfl

/-- Row r of the output lies in the block of point r / 5000, and every point writes its block back. -/
theorem rows_covered (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  have ht : (i 0).val / 5000 < cfg2.N := by rw [hN]; omega
  obtain ⟨-, -, -, -, -, -, -, -, -, -, e0, e1⟩ := block_indices ⟨(i 0).val / 5000, ht⟩
  refine ⟨⟨(i 0).val / 5000, ht⟩, flush2_5 _, ?_⟩
  rw [in_block_iff]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, ht⟩ (1 : Fin 2) * 128 ≤ (i 1).val
      ∧ (i 1).val < win2_5.index ⟨(i 0).val / 5000, ht⟩ (1 : Fin 2) * 128 + 128
    rw [e1]; omega

/-! ## The region's output array -/

theorem region2 :
    (dat2 (F := Ideal) V c).arrAt 5 cfg2.N
      = final (R := 50000) (V c main_v24) (V c main_v45) (V c main_v46) (V c main_v47) (V c main_v48) :=
  (dat2 (F := Ideal) V c).arrAt_eq_of_cover 5 _ (fun t _ => block_written V c t) rows_covered

end Cert.KernelIdeal.RegionValue2

end
-- ==== Proof.KFold.lean ====
/-
  The idealized kernel program's result, as one function of its arguments.

  The program is three kernel regions among stretches of host operations.  Its run ends with every buffer at the last
  stage `W6` of a fold through the program: a host stretch replaces a valuation by the stretch's results over it, a region
  replaces its output array by what its write-backs leave.  Read backwards from the result `main_v49`:
  the third region's output is the closing linear map of the two layer outputs, the two halves of the last weight and its
  bias as a row; the second region's output is a layer of the aggregation of the first layer's output; the first region's
  output is a layer of the aggregation of the input features.  The aggregation itself — gather the source nodes' rows,
  add them up per destination node, divide by the destination's edge count or one — is kept as ONE opaque function
  `aggK src dst` of the features: both programs run it with the same operations, so it is never opened.
  Buffers that nothing in between writes (the arguments, the edge list's two rows) are carried back to the launch memory.
-/
import proofs.«125097_j12695923327233_1_alg».proof.Proof.KRun
import proofs.«125097_j12695923327233_1_alg».proof.Proof.KRegion0
import proofs.«125097_j12695923327233_1_alg».proof.Proof.KRegion1
import proofs.«125097_j12695923327233_1_alg».proof.Proof.KRegion2
import proofs.«125097_j12695923327233_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Fold

open Idealize.ShloMosaic Idealize.ShloMosaic.TcCoe Idealize.SL.Sem Idealize.ShloMosaic.Pipeline Idealize.ShloMosaic.StableHlo
open Idealize.ShloMosaic.ValueIdx
open Cert.KernelIdeal Cert.KernelIdeal.Gen Cert.Sage

section Generic
variable {F : FTy → Type} [FloatOps F]

/-- The source node of every edge: the edge list's first row. -/
def srcOf (ei : (⟨S2x600000, .i32⟩ : BufTy).Contents (Elt F)) : (⟨S600000, .i32⟩ : BufTy).Contents (Elt F) :=
  shapeCast S600000 (extractStridedSlice S1x600000 ![0, 0] ei slices_S2x600000_S1x600000_0_0) shapeCasts_S1x600000_S600000

/-- The destination node of every edge: the edge list's second row. -/
def dstOf (ei : (⟨S2x600000, .i32⟩ : BufTy).Contents (Elt F)) : (⟨S600000, .i32⟩ : BufTy).Contents (Elt F) :=
  shapeCast S600000 (extractStridedSlice S1x600000 ![1, 0] ei slices_S2x600000_S1x600000_1_0) shapeCasts_S1x600000_S600000

/-- The neighbourhood mean of the features `feat` over the edges (src, dst): the rows of `feat` at the sources (a negative
    source index counted from the end), added up per destination, each node's sum divided by the larger of its edge
    count and one.  The host operations as the program spells them. -/
def aggK (src dst : (⟨S600000, .i32⟩ : BufTy).Contents (Elt F)) (feat : (⟨S50000x128, .f32⟩ : BufTy).Contents (Elt F)) :
    (⟨S50000x128, .f32⟩ : BufTy).Contents (Elt F) :=
  Host.divf
    (Host.scatterAdd scatter_S50000x128_S600000x1_S600000x128_1_0_0_1
      (broadcastInDim S50000x128 ![] bcast_S_S50000x128 (constant S_ .f32 0x00000000#32))
      (broadcastInDim S600000x1 ![0] bcast_S600000_S600000x1_0 dst)
      (Host.gather gather_S50000x128_S600000x1_S600000x128_1_0_n_n_0_1_1128 feat
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 50000#32))) src))))
    (broadcastInDim S50000x128 ![0, 1] bcast_S50000x1_S50000x128_0_1
      (broadcastInDim S50000x1 ![0] bcast_S50000_S50000x1_0
        (maximumf
          (Host.scatterAdd scatter_S50000_S600000x1_S600000_n_0_0_1
            (broadcastInDim S50000 ![] bcast_S_S50000 (constant S_ .f32 0x00000000#32))
            (broadcastInDim S600000x1 ![0] bcast_S600000_S600000x1_0 dst)
            (broadcastInDim S600000 ![] bcast_S_S600000 (constant S_ .f32 0x3F800000#32)))
          (broadcastInDim S50000 ![] bcast_S_S50000 (constant S_ .f32 0x3F800000#32)))))

variable (m : (ℓ : Loc nD τ sig) → Buf (Elt F) ℓ) (ρ : Dev nD → PrngReg) (c : Dev nD)

/-! ## The first host stretch: what the first region finds -/

set_option maxHeartbeats 8000000 in
/-- The first region's mean operand is the aggregation of the input features. -/
theorem W1_v22 : W1 m ρ c (Proc.devRef .tc main_v22)
    = aggK (srcOf (m ((c : Thread nD τ).loc main_arg1))) (dstOf (m ((c : Thread nD τ).loc main_arg1)))
        (m ((c : Thread nD τ).loc main_arg0)) := by
  show StableHlo.after hostOps0 (W0 m ρ c) (Proc.devRef .tc main_v22) = _
  after_results_simp
  rfl

set_option maxHeartbeats 8000000 in
/-- Its bias operand is the first bias as one row. -/
theorem W1_v23 : W1 m ρ c (Proc.devRef .tc main_v23)
    = shapeCast S1x128 (m ((c : Thread nD τ).loc main_arg3)) shapeCasts_S128_S1x128 := by
  show StableHlo.after hostOps0 (W0 m ρ c) (Proc.devRef .tc main_v23) = _
  after_results_simp
  rfl

set_option maxHeartbeats 8000000 in
/-- The edge list's first row, kept for the second aggregation. -/
theorem W1_v1 : W1 m ρ c (Proc.devRef .tc main_v1) = srcOf (m ((c : Thread nD τ).loc main_arg1)) := by
  show StableHlo.after hostOps0 (W0 m ρ c) (Proc.devRef .tc main_v1) = _
  after_results_simp
  rfl

set_option maxHeartbeats 8000000 in
/-- The edge list's second row, kept for the second aggregation. -/
theorem W1_v3 : W1 m ρ c (Proc.devRef .tc main_v3) = dstOf (m ((c : Thread nD τ).loc main_arg1)) := by
  show StableHlo.after hostOps0 (W0 m ρ c) (Proc.devRef .tc main_v3) = _
  after_results_simp
  rfl

set_option maxHeartbeats 8000000 in
/-- No operation of the first stretch writes an argument. -/
theorem W1_args : W1 m ρ c (Proc.devRef .tc main_arg0) = m ((c : Thread nD τ).loc main_arg0)
    ∧ W1 m ρ c (Proc.devRef .tc main_arg2) = m ((c : Thread nD τ).loc main_arg2)
    ∧ W1 m ρ c (Proc.devRef .tc main_arg4) = m ((c : Thread nD τ).loc main_arg4)
    ∧ W1 m ρ c (Proc.devRef .tc main_arg5) = m ((c : Thread nD τ).loc main_arg5)
    ∧ W1 m ρ c (Proc.devRef .tc main_arg6) = m ((c : Thread nD τ).loc main_arg6)
    ∧ W1 m ρ c (Proc.devRef .tc main_arg7) = m ((c : Thread nD τ).loc main_arg7)
    ∧ W1 m ρ c (Proc.devRef .tc main_arg8) = m ((c : Thread nD τ).loc main_arg8)
    ∧ W1 m ρ c (Proc.devRef .tc main_arg9) = m ((c : Thread nD τ).loc main_arg9) := by
  refine ⟨?_, ?_, ?_, ?_, ?_, ?_, ?_, ?_⟩ <;>
  · show StableHlo.after hostOps0 (W0 m ρ c) _ = _
    after_results_simp <;> rfl

/-! ## The second host stretch: what the second region finds, over the first region's exit -/

set_option maxHeartbeats 8000000 in
/-- The second region's mean operand is the aggregation of the first region's output. -/
theorem W3_v43 : W3 m ρ c (Proc.devRef .tc main_v43)
    = aggK (W2 m ρ c (Proc.devRef .tc main_v1)) (W2 m ρ c (Proc.devRef .tc main_v3)) (W2 m ρ c (Proc.devRef .tc main_v24)) := by
  show StableHlo.after hostOps1 (W2 m ρ c) (Proc.devRef .tc main_v43) = _
  after_results_simp
  rfl

set_option maxHeartbeats 8000000 in
/-- Its bias operand is the second bias as one row. -/
theorem W3_v44 : W3 m ρ c (Proc.devRef .tc main_v44)
    = shapeCast S1x128 (W2 m ρ c (Proc.devRef .tc main_arg6)) shapeCasts_S128_S1x128 := by
  show StableHlo.after hostOps1 (W2 m ρ c) (Proc.devRef .tc main_v44) = _
  after_results_simp
  rfl

set_option maxHeartbeats 8000000 in
/-- The second stretch writes neither the first region's output nor an argument. -/
theorem W3_keeps : W3 m ρ c (Proc.devRef .tc main_v24) = W2 m ρ c (Proc.devRef .tc main_v24)
    ∧ W3 m ρ c (Proc.devRef .tc main_arg5) = W2 m ρ c (Proc.devRef .tc main_arg5)
    ∧ W3 m ρ c (Proc.devRef .tc main_arg7) = W2 m ρ c (Proc.devRef .tc main_arg7)
    ∧ W3 m ρ c (Proc.devRef .tc main_arg8) = W2 m ρ c (Proc.devRef .tc main_arg8)
    ∧ W3 m ρ c (Proc.devRef .tc main_arg9) = W2 m ρ c (Proc.devRef .tc main_arg9) := by
  refine ⟨?_, ?_, ?_, ?_, ?_⟩ <;>
  · show StableHlo.after hostOps1 (W2 m ρ c) _ = _
    after_results_simp <;> rfl

/-! ## The third host stretch: what the third region finds, over the second region's exit -/

set_option maxHeartbeats 8000000 in
/-- The two halves of the last weight, its bias as one row; the two layer outputs untouched. -/
theorem W5_reads : W5 m ρ c (Proc.devRef .tc main_v46)
      = extractStridedSlice S128x128 ![0, 0] (W4 m ρ c (Proc.devRef .tc main_arg8)) slices_S256x128_S128x128_0_0
    ∧ W5 m ρ c (Proc.devRef .tc main_v47)
      = extractStridedSlice S128x128 ![128, 0] (W4 m ρ c (Proc.devRef .tc main_arg8)) slices_S256x128_S128x128_128_0
    ∧ W5 m ρ c (Proc.devRef .tc main_v48) = shapeCast S1x128 (W4 m ρ c (Proc.devRef .tc main_arg9)) shapeCasts_S128_S1x128
    ∧ W5 m ρ c (Proc.devRef .tc main_v24) = W4 m ρ c (Proc.devRef .tc main_v24)
    ∧ W5 m ρ c (Proc.devRef .tc main_v45) = W4 m ρ c (Proc.devRef .tc main_v45) := by
  refine ⟨?_, ?_, ?_, ?_, ?_⟩ <;>
  · show StableHlo.after hostOps2 (W4 m ρ c) _ = _
    after_results_simp <;> rfl

/-! ## Across the regions: an input window's array and a buffer outside the region are as entered -/

/-- The second region reads the first region's output through an input window: it leaves it as entered. -/
theorem W4_v24 : W4 m ρ c (Proc.devRef .tc main_v24) = W3 m ρ c (Proc.devRef .tc main_v24) :=
  (W4_arr m ρ c 1).trans (((dat1 (V3 m ρ) c).arrAt_in 1 rfl _).trans (A_eq1 (V3 m ρ) c 1))

end Generic

/-! ## At the exact instance: the three regions' outputs and the result -/

section Exact
variable (m : (ℓ : Loc nD τ sig) → Buf (Elt Ideal) ℓ) (ρ : Dev nD → PrngReg) (c : Dev nD)

/-- A length-128 vector recast as one row is that row. -/
theorem shapeCast_row (b : (⟨S128, .f32⟩ : BufTy).Contents (Elt Ideal)) :
    (shapeCast S1x128 b shapeCasts_S128_S1x128 : Mat 1 128) = rowOf b := by
  funext i
  refine shapeCast_apply b shapeCasts_S128_S1x128 i (ix1 (i 1)) ?_
  rw [Shape.rowMajor_val_one, Shape.rowMajor_val_two]
  have h0 : (i 0).val < 1 := idx2_lt0 i
  show (i 1).val = (i 0).val * 128 + (i 1).val
  omega

/-- The slice of the first 128 rows. -/
theorem slice_top (w : (⟨S256x128, .f32⟩ : BufTy).Contents (Elt Ideal)) :
    (extractStridedSlice S128x128 ![0, 0] w slices_S256x128_S128x128_0_0 : Mat 128 128) = top w := by
  funext i
  refine extractStridedSlice_apply ![0, 0] w slices_S256x128_S128x128_0_0 i _ fun a => ?_
  match a with
  | ⟨0, _⟩ => show (i 0).val = 0 + (i 0).val; omega
  | ⟨1, _⟩ => show (i 1).val = 0 + (i 1).val; omega

/-- The slice of the last 128 rows. -/
theorem slice_bot (w : (⟨S256x128, .f32⟩ : BufTy).Contents (Elt Ideal)) :
    (extractStridedSlice S128x128 ![128, 0] w slices_S256x128_S128x128_128_0 : Mat 128 128) = bot w := by
  funext i
  refine extractStridedSlice_apply ![128, 0] w slices_S256x128_S128x128_128_0 i _ fun a => ?_
  match a with
  | ⟨0, _⟩ => show 128 + (i 0).val = 128 + (i 0).val; rfl
  | ⟨1, _⟩ => show (i 1).val = 0 + (i 1).val; omega

/-- The first layer's output, as the first region leaves it. -/
def x1K : Mat 50000 128 :=
  layer (aggK (srcOf (m ((c : Thread nD τ).loc main_arg1))) (dstOf (m ((c : Thread nD τ).loc main_arg1))) (m ((c : Thread nD τ).loc main_arg0)))
    (m ((c : Thread nD τ).loc main_arg0)) (m ((c : Thread nD τ).loc main_arg2))
    (rowOf (m ((c : Thread nD τ).loc main_arg3))) (m ((c : Thread nD τ).loc main_arg4))

/-- The second layer's output, as the second region leaves it. -/
def x2K : Mat 50000 128 :=
  layer (aggK (srcOf (m ((c : Thread nD τ).loc main_arg1))) (dstOf (m ((c : Thread nD τ).loc main_arg1))) (x1K m c))
    (x1K m c) (m ((c : Thread nD τ).loc main_arg5))
    (rowOf (m ((c : Thread nD τ).loc main_arg6))) (m ((c : Thread nD τ).loc main_arg7))

/-- The first region's output array is a layer of the aggregated input features. -/
theorem W2_v24 : W2 m ρ c (Proc.devRef .tc main_v24) = x1K m c := by
  refine (W2_arr m ρ c 5).trans ((RegionValue0.region0 (V1 m ρ) c).trans ?_)
  obtain ⟨a0, a2, a4, -⟩ := W1_args m ρ c
  show layer (W1 m ρ c (Proc.devRef .tc main_v22)) (W1 m ρ c (Proc.devRef .tc main_arg0)) (W1 m ρ c (Proc.devRef .tc main_arg2))
      (W1 m ρ c (Proc.devRef .tc main_v23)) (W1 m ρ c (Proc.devRef .tc main_arg4)) = _
  rw [W1_v22, W1_v23, a0, a2, a4, shapeCast_row]
  rfl

/-- The second region's output array is a layer of the aggregated first output. -/
theorem W4_v45 : W4 m ρ c (Proc.devRef .tc main_v45) = x2K m c := by
  refine (W4_arr m ρ c 5).trans ((RegionValue1.region1 (V3 m ρ) c).trans ?_)
  obtain ⟨k24, k5, k7, -, -⟩ := W3_keeps m ρ c
  obtain ⟨-, -, -, a5, a6, a7, -, -⟩ := W1_args m ρ c
  show layer (W3 m ρ c (Proc.devRef .tc main_v43)) (W3 m ρ c (Proc.devRef .tc main_v24)) (W3 m ρ c (Proc.devRef .tc main_arg5))
      (W3 m ρ c (Proc.devRef .tc main_v44)) (W3 m ρ c (Proc.devRef .tc main_arg7)) = _
  rw [W3_v43, W3_v44, k24, k5, k7, W2_v24,
    W2_of_ne m ρ c main_v1 (by decide), W2_of_ne m ρ c main_v3 (by decide), W2_of_ne m ρ c main_arg5 (by decide),
    W2_of_ne m ρ c main_arg6 (by decide), W2_of_ne m ρ c main_arg7 (by decide), W1_v1, W1_v3, a5, a6, a7, shapeCast_row]
  rfl

/-- THE RESULT: the third region's output array is the network of the arguments. -/
theorem W6_v49 : W6 m ρ c (Proc.devRef .tc main_v49)
    = network (aggK (srcOf (m ((c : Thread nD τ).loc main_arg1))) (dstOf (m ((c : Thread nD τ).loc main_arg1))))
        (m ((c : Thread nD τ).loc main_arg0)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) := by
  refine (W6_arr m ρ c 5).trans ((RegionValue2.region2 (V5 m ρ) c).trans ?_)
  obtain ⟨r46, r47, r48, k24, k45⟩ := W5_reads m ρ c
  obtain ⟨k24', -, -, k8, k9⟩ := W3_keeps m ρ c
  obtain ⟨-, -, -, -, -, -, a8, a9⟩ := W1_args m ρ c
  show final (W5 m ρ c (Proc.devRef .tc main_v24)) (W5 m ρ c (Proc.devRef .tc main_v45)) (W5 m ρ c (Proc.devRef .tc main_v46))
      (W5 m ρ c (Proc.devRef .tc main_v47)) (W5 m ρ c (Proc.devRef .tc main_v48)) = _
  rw [r46, r47, r48, k24, k45, W4_v24, k24', W2_v24, W4_v45,
    W4_of_ne m ρ c main_arg8 (by decide), W4_of_ne m ρ c main_arg9 (by decide), k8, k9,
    W2_of_ne m ρ c main_arg8 (by decide), W2_of_ne m ρ c main_arg9 (by decide), a8, a9, shapeCast_row, slice_top, slice_bot]
  rfl

end Exact

end Cert.KernelIdeal.Fold

end
-- ==== Proof.RefValue.lean ====
/-
  The reference program's result is the two-layer neighbourhood-mean network.

  Read stage by stage, the reference computes: the neighbourhood mean of the node features; the first layer
  max(((mean·wl) + b) + x·wr, 0), the one-row bias added to every row BEFORE the second product; the neighbourhood
  mean of the first layer's output, by the same operations on the same edge list; the second layer in the same
  arrangement; the two layers' outputs laid side by side, 256 columns; their product against the 256-row weight; and
  the closing bias.  Entry (r, c) of each product is the sum over k of left[r, k] · right[k, c]; entry (r, c) of a
  broadcast bias is b[c].

  Three laws carry this to the specification.  (p + s) + q = (p + q) + s puts the bias after the second product.
  The second mean is literally the first mean's function applied to the first layer's output.  And the sum over 256
  columns splits into the first 128, where the side-by-side matrix is the first layer's output and the weight's row
  k is row k of its top half, and the last 128, where it is the second layer's output at column (128 + k) - 128 = k
  and the weight's row 128 + k is row k of its bottom half.  The mean stage itself is never opened.
-/
import proofs.«125097_j12695923327233_1_alg».proof.Proof.Gen.ReferenceIdeal.Read
import proofs.«125097_j12695923327233_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read Cert.Sage

open scoped BigOperators

/-! ## The printed index maps are the coordinate constructors -/

theorem left_index_23 (i : S50000x128.Idx) (k : Fin 128) : lidx_main_v23 i k = ix2 (i 0) k :=
  funext fun a => Fin.ext (by match a with | ⟨0, _⟩ => rfl | ⟨1, _⟩ => rfl)
theorem right_index_23 (i : S50000x128.Idx) (k : Fin 128) : ridx_main_v23 i k = ix2 k (i 1) :=
  funext fun a => Fin.ext (by match a with | ⟨0, _⟩ => rfl | ⟨1, _⟩ => rfl)
theorem left_index_27 (i : S50000x128.Idx) (k : Fin 128) : lidx_main_v27 i k = ix2 (i 0) k :=
  funext fun a => Fin.ext (by match a with | ⟨0, _⟩ => rfl | ⟨1, _⟩ => rfl)
theorem right_index_27 (i : S50000x128.Idx) (k : Fin 128) : ridx_main_v27 i k = ix2 k (i 1) :=
  funext fun a => Fin.ext (by match a with | ⟨0, _⟩ => rfl | ⟨1, _⟩ => rfl)
theorem left_index_49 (i : S50000x128.Idx) (k : Fin 128) : lidx_main_v49 i k = ix2 (i 0) k :=
  funext fun a => Fin.ext (by match a with | ⟨0, _⟩ => rfl | ⟨1, _⟩ => rfl)
theorem right_index_49 (i : S50000x128.Idx) (k : Fin 128) : ridx_main_v49 i k = ix2 k (i 1) :=
  funext fun a => Fin.ext (by match a with | ⟨0, _⟩ => rfl | ⟨1, _⟩ => rfl)
theorem left_index_53 (i : S50000x128.Idx) (k : Fin 128) : lidx_main_v53 i k = ix2 (i 0) k :=
  funext fun a => Fin.ext (by match a with | ⟨0, _⟩ => rfl | ⟨1, _⟩ => rfl)
theorem right_index_53 (i : S50000x128.Idx) (k : Fin 128) : ridx_main_v53 i k = ix2 k (i 1) :=
  funext fun a => Fin.ext (by match a with | ⟨0, _⟩ => rfl | ⟨1, _⟩ => rfl)
theorem bias_index_1 (i : S50000x128.Idx) : idx_main_v24 (idx_main_v25 i) = ix1 (i 1) :=
  funext fun a => Fin.ext (by match a with | ⟨0, _⟩ => rfl)
theorem bias_index_2 (i : S50000x128.Idx) : idx_main_v50 (idx_main_v51 i) = ix1 (i 1) :=
  funext fun a => Fin.ext (by match a with | ⟨0, _⟩ => rfl)
theorem bias_index_3 (i : S50000x128.Idx) : idx_main_v58 (idx_main_v59 i) = ix1 (i 1) :=
  funext fun a => Fin.ext (by match a with | ⟨0, _⟩ => rfl)

/-! ## Layer one: max(((mean·wl) + b) + x·wr, 0), the bias added before the second product -/

theorem layer_one (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v29 (F := Ideal) x0 x1 x2 x3 x4 = layer (val_main_v22 (F := Ideal) x0 x1) x0 x2 (rowOf x3) x4 := by
  funext i
  rw [val_main_v29_apply, val_main_v28_apply, val_main_v26_apply, val_main_v23_apply, val_main_v25_apply,
    val_main_v24_apply, val_main_v27_apply, val_main_call0_v0_apply, val_main_call0_cst_apply, ← layer_comm]
  simp only [Ideal.addf_def, Ideal.maximumf_def, Ideal.ofBits_def, Ideal.ofBits_zero_f32,
    left_index_23, right_index_23, left_index_27, right_index_27, bias_index_1]
  rfl

/-! ## The second aggregation is the first one's function, of layer one's output -/

theorem second_mean (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v48 (F := Ideal) x0 x1 x2 x3 x4
      = val_main_v22 (F := Ideal) (val_main_v29 (F := Ideal) x0 x1 x2 x3 x4) x1 := rfl

/-! ## Layer two, on layer one's output and its neighbourhood mean -/

theorem layer_two (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v55 (F := Ideal) x0 x1 x2 x3 x4 x5 x6 x7
      = layer (val_main_v22 (F := Ideal) (val_main_v29 (F := Ideal) x0 x1 x2 x3 x4) x1)
          (val_main_v29 (F := Ideal) x0 x1 x2 x3 x4) x5 (rowOf x6) x7 := by
  funext i
  rw [val_main_v55_apply, val_main_v54_apply, val_main_v52_apply, val_main_v49_apply, val_main_v51_apply,
    val_main_v50_apply, val_main_v53_apply, val_main_call1_v0_apply, val_main_call1_cst_apply, second_mean, ← layer_comm]
  simp only [Ideal.addf_def, Ideal.maximumf_def, Ideal.ofBits_def, Ideal.ofBits_zero_f32,
    left_index_49, right_index_49, left_index_53, right_index_53, bias_index_2]
  rfl

/-! ## The closing product: two matrices side by side against the two halves of the weight's rows -/

theorem closing_product (y1 y2 : (⟨S50000x128, .f32⟩ : BufTy).Contents (Elt Ideal))
    (x8 : (⟨S256x128, .f32⟩ : BufTy).Contents (Elt Ideal)) (i : S50000x128.Idx) :
    ∑ k : Fin 256, concatenate S50000x256 1 [⟨S50000x128, y1⟩, ⟨S50000x128, y2⟩]
        concatenates_S50000x128_S50000x128_S50000x256_d1 (lidx_main_v57 i k) * x8 (ridx_main_v57 i k)
      = dot y1 (top x8) i + dot y2 (bot x8) i := by
  rw [sum_split']
  congr 1
  · -- columns 0 … 127 lie in the first matrix; row k of the weight is row k of its top half
    refine Finset.sum_congr rfl fun k _ => ?_
    exact congrArg₂ (· * ·)
      (concatenate_pair_apply_left (t := S50000x256) (s₁ := S50000x128) (s₂ := S50000x128) 1 y1 y2
        concatenates_S50000x128_S50000x128_S50000x256_d1 _ rfl (ix2 (i 0) k)
        (fun b => match b with | ⟨0, _⟩ => rfl | ⟨1, _⟩ => rfl))
      (congrArg x8 (funext fun a => Fin.ext (by match a with | ⟨0, _⟩ => rfl | ⟨1, _⟩ => rfl)))
  · -- columns 128 … 255 lie in the second matrix, at column k = (128 + k) - 128; row 128 + k of the weight is row k of its bottom half
    refine Finset.sum_congr rfl fun k _ => ?_
    exact congrArg₂ (· * ·)
      (concatenate_pair_apply_right (t := S50000x256) (s₁ := S50000x128) (s₂ := S50000x128) 1 y1 y2
        concatenates_S50000x128_S50000x128_S50000x256_d1 _ rfl rfl (ix2 (i 0) k)
        (fun b hb => match b, hb with | ⟨0, _⟩, _ => rfl | ⟨1, _⟩, hb => absurd rfl hb)
        (Nat.add_comm _ _))
      (congrArg x8 (funext fun a => Fin.ext (by match a with | ⟨0, _⟩ => rfl | ⟨1, _⟩ => rfl)))

/-! ## The reference's result is the network -/

theorem ref_network (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S256x128, .f32⟩ : BufTy).Contents (Elt Ideal))
    (x9 : (⟨S128, .f32⟩ : BufTy).Contents (Elt Ideal)) :
    val_main_v60 (F := Ideal) x0 x1 x2 x3 x4 x5 x6 x7 x8 x9
      = network (fun f => val_main_v22 (F := Ideal) f x1) x0 x2 x3 x4 x5 x6 x7 x8 x9 := by
  funext i
  rw [val_main_v60_apply, val_main_v57_apply, val_main_v59_apply, val_main_v58_apply]
  unfold val_main_v56
  rw [closing_product, layer_two, layer_one]
  simp only [Ideal.addf_def, bias_index_3]
  rfl

end Cert.ReferenceIdeal.RefValue

end
-- ==== Proof.lean ====
/-
  The certificate's claims for the two-layer neighbourhood-mean network.

  The three frames: the two kernel programs' are the generated frame certificates (three regions among host stretches,
  every region of class A); the reference has no kernel, and its frame is its generated run with the result dropped.
  `preserves` is trivial: the idealization rewrote no operation.

  `algebraic`: at the exact instance both programs end with the result array at ONE function of the arguments, the
  specification `Cert.Sage.network`: two layers max((mean·W_l + x·W_r) + b, 0) over the neighbourhood mean of their
  input, then the linear map (x1·W_top + x2·W_bot) + b of both layers' outputs.  The kernel program reaches it through
  its run with the last boundary named and the fold through its three regions; the reference through its generated run
  read index by index, where adding the bias before the second product and multiplying the side-by-side pair of layer
  outputs against the whole last weight are the same sums regrouped.  The aggregation is one opaque function on both
  sides: the two programs spell it with the same operations, and the two spellings are equal by unfolding.
-/
import proofs.«125097_j12695923327233_1_alg».proof.Defs
import proofs.«125097_j12695923327233_1_alg».proof.Proof.Gen.Kernel
import proofs.«125097_j12695923327233_1_alg».proof.Proof.Gen.Kernel.Skeleton
import proofs.«125097_j12695923327233_1_alg».proof.Proof.Patched.Kernel.Launch
import proofs.«125097_j12695923327233_1_alg».proof.Proof.Gen.Kernel.Points
import proofs.«125097_j12695923327233_1_alg».proof.Proof.Patched.Kernel.Frame
import proofs.«125097_j12695923327233_1_alg».proof.Proof.Gen.KernelIdeal
import proofs.«125097_j12695923327233_1_alg».proof.Proof.Gen.KernelIdeal.Skeleton
import proofs.«125097_j12695923327233_1_alg».proof.Proof.Patched.KernelIdeal.Launch
import proofs.«125097_j12695923327233_1_alg».proof.Proof.Gen.KernelIdeal.Points
import proofs.«125097_j12695923327233_1_alg».proof.Proof.Patched.KernelIdeal.Frame
import proofs.«125097_j12695923327233_1_alg».proof.Proof.Gen.ReferenceIdeal
import proofs.«125097_j12695923327233_1_alg».proof.Proof.Gen.ReferenceIdeal.Run
import proofs.«125097_j12695923327233_1_alg».proof.Proof.Gen.ReferenceIdeal.Read
import proofs.«125097_j12695923327233_1_alg».proof.Proof.Gen.Pre_finite_inputs
import proofs.«125097_j12695923327233_1_alg».proof.Proof.KRun
import proofs.«125097_j12695923327233_1_alg».proof.Proof.KFold
import proofs.«125097_j12695923327233_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The aggregation as the kernel program spells it is the aggregation as the reference spells it: the same host
    operations over the same dimension records, equal by unfolding both. -/
theorem agg_same (ei : (⟨Cert.KernelIdeal.S2x600000, .i32⟩ : BufTy).Contents (Elt Ideal)) :
    (fun f => Cert.ReferenceIdeal.Read.val_main_v22 (F := Ideal) f ei)
      = Cert.KernelIdeal.Fold.aggK (F := Ideal) (Cert.KernelIdeal.Fold.srcOf ei) (Cert.KernelIdeal.Fold.dstOf ei) :=
  funext fun _ => rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Gen in
/-- The kernel program's run with its result named: the last boundary's contents at the result array are the network of
    the arguments, and at each argument array the launch contents. -/
theorem kernel_run (m : (ℓ : Loc nD τ sig) → Buf (Elt Ideal) ℓ) (ρ : Dev nD → PrngReg) :
    θ_run (Cert.KernelIdeal.defs (F := Ideal)) (onTc (τ := τ) (main (F := Ideal))) ⟨m, fun _ => 0, ρ⟩ (fun r => ∀ c : Dev nD,
      r.2.mem ((c.tc : Thread nD τ).loc main_v49)
        = Cert.Sage.network (Fold.aggK (F := Ideal) (Fold.srcOf (m ((c.tc : Thread nD τ).loc main_arg1))) (Fold.dstOf (m ((c.tc : Thread nD τ).loc main_arg1))))
            (m ((c.tc : Thread nD τ).loc main_arg0)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6))
            (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run Cert.KernelIdeal.defs _ _).mono (fun r h c =>
      ⟨(h c _ (mem_uc main_v49 (by decide))).trans (Fold.W6_v49 m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)
    (run_W6 (F := Ideal) m ρ)

/-- Both programs end with the result at the network of the arguments; the arguments agree, and the two spellings of the
    aggregation are one function. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v60_eq, Cert.ReferenceIdeal.RefValue.ref_network, e0, e1, e2, e3, e4, e5, e6, e7, e8, e9, agg_same]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
